-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S4096 : Shape := ⟨1, ![4096]⟩
abbrev S2048 : Shape := ⟨1, ![2048]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : FVec F S8192x8192 .f32) (main_arg2 : IVec S4096 32) (main_arg3 : IVec S2048 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x8192 : Shape := ⟨2, ![8192, 8192]⟩
abbrev S4096 : Shape := ⟨1, ![4096]⟩
abbrev S2048 : Shape := ⟨1, ![2048]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x8192 : Shape := ⟨2, ![4096, 8192]⟩
abbrev S2048x1 : Shape := ⟨2, ![2048, 1]⟩
abbrev S8192x2048 : Shape := ⟨2, ![8192, 2048]⟩
abbrev S4096x2048 : Shape := ⟨2, ![4096, 2048]⟩
abbrev S1024x1024 : Shape := ⟨2, ![1024, 1024]⟩

abbrev nBuf : Space → Nat
  | .hbm => 51
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S4096, .i32⟩
  | .hbm, ⟨3, _⟩ => ⟨S2048, .i32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S1, .i32⟩
  | .hbm, ⟨13, _⟩ => ⟨S_, .i32⟩
  | .hbm, ⟨14, _⟩ => ⟨S4096x1, .i32⟩
  | .hbm, ⟨15, _⟩ => ⟨S4096x1, .i1⟩
  | .hbm, ⟨16, _⟩ => ⟨S1x1, .i32⟩
  | .hbm, ⟨17, _⟩ => ⟨S4096x1, .i32⟩
  | .hbm, ⟨18, _⟩ => ⟨S4096x1, .i1⟩
  | .hbm, ⟨19, _⟩ => ⟨S4096x1, .i1⟩
  | .hbm, ⟨20, _⟩ => ⟨S_, .i1⟩
  | .hbm, ⟨21, _⟩ => ⟨S4096, .i1⟩
  | .hbm, ⟨22, _⟩ => ⟨S4096x8192, .f32⟩
  | .hbm, ⟨23, _⟩ => ⟨S4096x8192, .i1⟩
  | .hbm, ⟨24, _⟩ => ⟨S_, .f32⟩
  | .hbm, ⟨25, _⟩ => ⟨S4096x8192, .f32⟩
  | .hbm, ⟨26, _⟩ => ⟨S4096x8192, .f32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S2048x1, .i32⟩
  | .hbm, ⟨35, _⟩ => ⟨S1, .i32⟩
  | .hbm, ⟨36, _⟩ => ⟨S_, .i32⟩
  | .hbm, ⟨37, _⟩ => ⟨S2048x1, .i32⟩
  | .hbm, ⟨38, _⟩ => ⟨S2048x1, .i1⟩
  | .hbm, ⟨39, _⟩ => ⟨S1x1, .i32⟩
  | .hbm, ⟨40, _⟩ => ⟨S2048x1, .i32⟩
  | .hbm, ⟨41, _⟩ => ⟨S2048x1, .i1⟩
  | .hbm, ⟨42, _⟩ => ⟨S2048x1, .i1⟩
  | .hbm, ⟨43, _⟩ => ⟨S_, .i1⟩
  | .hbm, ⟨44, _⟩ => ⟨S2048, .i1⟩
  | .hbm, ⟨45, _⟩ => ⟨S8192x2048, .f32⟩
  | .hbm, ⟨46, _⟩ => ⟨S8192x2048, .i1⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x8192_0 : S4096.BroadcastsInDim S4096x8192 (![0] : Fin 1 → Fin S4096x8192.rank)
  bcast_S_S4096x8192 : S_.BroadcastsInDim S4096x8192 (![] : Fin 0 → Fin S4096x8192.rank)
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1x1_S2048x1_0_1 : S1x1.BroadcastsInDim S2048x1 (![0, 1] : Fin 2 → Fin S2048x1.rank)
  reducesTo_S2048x1_S2048_d1 : S2048x1.ReducesTo [1] S2048
  bcast_S2048_S8192x2048_1 : S2048.BroadcastsInDim S8192x2048 (![1] : Fin 1 → Fin S8192x2048.rank)
  bcast_S_S8192x2048 : S_.BroadcastsInDim S8192x2048 (![] : Fin 0 → Fin S8192x2048.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  gather_S8192x8192_S4096x1_S4096x8192_1_0_n_n_0_1_18192_wf : GatherDims.WF S8192x8192 S4096x1 S4096x8192 [1] [0] [] [0] [] 1 ![1, 8192]
  gather_S8192x8192_S2048x1_S8192x2048_0_1_n_n_1_1_81921_wf : GatherDims.WF S8192x8192 S2048x1 S8192x2048 [0] [1] [] [1] [] 1 ![8192, 1]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x8192.size a
  hwx0_0 : ∀ i : grid0.Coords, EltTy.bits .f32 = 32 ∨ (Rect.block (s := S4096x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x2048.size a
  hwx0_1 : ∀ i : grid0.Coords, EltTy.bits .f32 = 32 ∨ (Rect.block (s := S8192x2048) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x2048.size a
  hwx0_2 : ∀ i : grid0.Coords, EltTy.bits .f32 = 32 ∨ (Rect.block (s := S4096x2048) S1024x1024.size (cc0_transform_2 i) (hinb0_2 i)).WholeWords (EltTy.packing .f32)

variable [Facts₀]

def gather_S8192x8192_S4096x1_S4096x8192_1_0_n_n_0_1_18192 : GatherDims S8192x8192 S4096x1 S4096x8192 where
  offsetDims := [1]
  collapsedSliceDims := [0]
  operandBatchingDims := []
  startIndicesBatchingDims := []
  startIndexMap := [0]
  indexVectorDim := 1
  sliceSizes := ![1, 8192]
  wf := gather_S8192x8192_S4096x1_S4096x8192_1_0_n_n_0_1_18192_wf
def gather_S8192x8192_S2048x1_S8192x2048_0_1_n_n_1_1_81921 : GatherDims S8192x8192 S2048x1 S8192x2048 where
  offsetDims := [0]
  collapsedSliceDims := [1]
  operandBatchingDims := []
  startIndicesBatchingDims := []
  startIndexMap := [1]
  indexVectorDim := 1
  sliceSizes := ![8192, 1]
  wf := gather_S8192x8192_S2048x1_S8192x2048_0_1_n_n_1_1_81921_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x8192 : Shape := ⟨2, ![8192, 8192]⟩
abbrev S4096 : Shape := ⟨1, ![4096]⟩
abbrev S2048 : Shape := ⟨1, ![2048]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x8192 : Shape := ⟨2, ![4096, 8192]⟩
abbrev S2048x1 : Shape := ⟨2, ![2048, 1]⟩
abbrev S8192x2048 : Shape := ⟨2, ![8192, 2048]⟩
abbrev S4096x2048 : Shape := ⟨2, ![4096, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S4096, .i32⟩
  | .hbm, ⟨3, _⟩ => ⟨S2048, .i32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S1, .i32⟩
  | .hbm, ⟨13, _⟩ => ⟨S_, .i32⟩
  | .hbm, ⟨14, _⟩ => ⟨S4096x1, .i32⟩
  | .hbm, ⟨15, _⟩ => ⟨S4096x1, .i1⟩
  | .hbm, ⟨16, _⟩ => ⟨S1x1, .i32⟩
  | .hbm, ⟨17, _⟩ => ⟨S4096x1, .i32⟩
  | .hbm, ⟨18, _⟩ => ⟨S4096x1, .i1⟩
  | .hbm, ⟨19, _⟩ => ⟨S4096x1, .i1⟩
  | .hbm, ⟨20, _⟩ => ⟨S_, .i1⟩
  | .hbm, ⟨21, _⟩ => ⟨S4096, .i1⟩
  | .hbm, ⟨22, _⟩ => ⟨S4096x8192, .f32⟩
  | .hbm, ⟨23, _⟩ => ⟨S4096x8192, .i1⟩
  | .hbm, ⟨24, _⟩ => ⟨S_, .f32⟩
  | .hbm, ⟨25, _⟩ => ⟨S4096x8192, .f32⟩
  | .hbm, ⟨26, _⟩ => ⟨S4096x8192, .f32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S2048x1, .i32⟩
  | .hbm, ⟨35, _⟩ => ⟨S1, .i32⟩
  | .hbm, ⟨36, _⟩ => ⟨S_, .i32⟩
  | .hbm, ⟨37, _⟩ => ⟨S2048x1, .i32⟩
  | .hbm, ⟨38, _⟩ => ⟨S2048x1, .i1⟩
  | .hbm, ⟨39, _⟩ => ⟨S1x1, .i32⟩
  | .hbm, ⟨40, _⟩ => ⟨S2048x1, .i32⟩
  | .hbm, ⟨41, _⟩ => ⟨S2048x1, .i1⟩
  | .hbm, ⟨42, _⟩ => ⟨S2048x1, .i1⟩
  | .hbm, ⟨43, _⟩ => ⟨S_, .i1⟩
  | .hbm, ⟨44, _⟩ => ⟨S2048, .i1⟩
  | .hbm, ⟨45, _⟩ => ⟨S8192x2048, .f32⟩
  | .hbm, ⟨46, _⟩ => ⟨S8192x2048, .i1⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S4096x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x8192_0 : S4096.BroadcastsInDim S4096x8192 (![0] : Fin 1 → Fin S4096x8192.rank)
  bcast_S_S4096x8192 : S_.BroadcastsInDim S4096x8192 (![] : Fin 0 → Fin S4096x8192.rank)
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1x1_S2048x1_0_1 : S1x1.BroadcastsInDim S2048x1 (![0, 1] : Fin 2 → Fin S2048x1.rank)
  reducesTo_S2048x1_S2048_d1 : S2048x1.ReducesTo [1] S2048
  bcast_S2048_S8192x2048_1 : S2048.BroadcastsInDim S8192x2048 (![1] : Fin 1 → Fin S8192x2048.rank)
  bcast_S_S8192x2048 : S_.BroadcastsInDim S8192x2048 (![] : Fin 0 → Fin S8192x2048.rank)
  gather_S8192x8192_S4096x1_S4096x8192_1_0_n_n_0_1_18192_wf : GatherDims.WF S8192x8192 S4096x1 S4096x8192 [1] [0] [] [0] [] 1 ![1, 8192]
  gather_S8192x8192_S2048x1_S8192x2048_0_1_n_n_1_1_81921_wf : GatherDims.WF S8192x8192 S2048x1 S8192x2048 [0] [1] [] [1] [] 1 ![8192, 1]
  dot_S4096x8192_S8192x2048_S4096x2048_1_0_0_1_n_n_wf : DotDims.WF S4096x8192 S8192x2048 S4096x2048 [1] [0] [0] [1] [] []

variable [Facts₀]

def gather_S8192x8192_S4096x1_S4096x8192_1_0_n_n_0_1_18192 : GatherDims S8192x8192 S4096x1 S4096x8192 where
  offsetDims := [1]
  collapsedSliceDims := [0]
  operandBatchingDims := []
  startIndicesBatchingDims := []
  startIndexMap := [0]
  indexVectorDim := 1
  sliceSizes := ![1, 8192]
  wf := gather_S8192x8192_S4096x1_S4096x8192_1_0_n_n_0_1_18192_wf
def gather_S8192x8192_S2048x1_S8192x2048_0_1_n_n_1_1_81921 : GatherDims S8192x8192 S2048x1 S8192x2048 where
  offsetDims := [0]
  collapsedSliceDims := [1]
  operandBatchingDims := []
  startIndicesBatchingDims := []
  startIndexMap := [1]
  indexVectorDim := 1
  sliceSizes := ![8192, 1]
  wf := gather_S8192x8192_S2048x1_S8192x2048_0_1_n_n_1_1_81921_wf
def dot_S4096x8192_S8192x2048_S4096x2048_1_0_0_1_n_n : DotDims S4096x8192 S8192x2048 S4096x2048 where
  lhsContracting := [1]
  rhsContracting := [0]
  lhsNonContracting := [0]
  rhsNonContracting := [1]
  lhsBatch := []
  rhsBatch := []
  wf := dot_S4096x8192_S8192x2048_S4096x2048_1_0_0_1_n_n_wf

class Facts : Prop extends Facts₀ where

variable [Facts]
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.Pieces.lean ====
import proofs.«164879_j29111288332534_1_alg».proof.Proof.Gen.KernelIdeal.Frame
import Idealize.ShloMosaic.Lib.Pipeline.Value
import Idealize.ShloMosaic.Lib.Tactic

/-!
# What one grid point leaves behind

The kernel body at a grid point (i, j, k) does three things: at k = 0 it clears the accumulator, then it adds the
product of the point's two input blocks to the accumulator, and at the last k it copies the accumulator into the
output block. So whatever the control case, the accumulator ends at

    acc + A_blk * B_blk      (with acc the zero block when the point clears it first),

and at the last k the output block holds the same value. The four equations below say so for the pieces the body's
run leaves, for any float instance.
-/

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A point in the middle of a run of k: the accumulator gains the product of the two blocks. -/
theorem scratch_mid (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole) (hc0 : ¬cond0_0 i) (hc1 : ¬cond0_1 i)
    (x0 x1 acc : Vec F S1024x1024 .f32) :
    sout0_B_0 c i a3 h3 a4 h4 a5 h5 a6 h6 hc0 hc1 x0 x1 acc = k0_pay2 x0 x1 acc := by
  unfold sout0_B_0
  rw [View.read_writes_eq_canon _ _ _ (scover0_B_0 c i a3 h3 a4 h4 a5 h5 a6 h6 hc0 hc1 x0 x1 acc)]
  unfold kernelRun0_B
  dsimp only
  sl_unfold_words
  rw [View.canon_unit_zero hz]
  simp only [View.readAt_eq_ld, h3.read_unread, h4.read_unread, h6.read_unread, View.ld_unit_zero (S := S1024x1024) hz]

/-- The last point of a run of k: the accumulator gains the product of the two blocks, -/
theorem scratch_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i)
    (x0 x1 acc : Vec F S1024x1024 .f32) :
    sout0_C_0 c i a3 h3 a4 h4 a5 h5 a6 h6 hc0 hc1 x0 x1 acc = k0_pay2 x0 x1 acc := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero hz]
  simp only [View.readAt_eq_ld, h3.read_unread, h4.read_unread, h6.read_unread, View.ld_unit_zero (S := S1024x1024) hz]

/-- and the output block is a copy of it. -/
theorem out_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i)
    (x0 x1 acc : Vec F S1024x1024 .f32) :
    out0_C_2 c i a3 h3 a4 h4 a5 h5 a6 h6 hc0 hc1 x0 x1 acc = k0_pay2 x0 x1 acc := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero hz]
  simp only [View.readAt_eq_ld, h3.read_unread, h4.read_unread, h6.read_unread, View.ld_unit_zero (S := S1024x1024) hz,
    View.readCov_unit_zero (S := S1024x1024) _ hz]

/-- The first point of a run of k: the accumulator is cleared and then gains the product of the two blocks. -/
theorem scratch_first (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i)
    (x0 x1 : Vec F S1024x1024 .f32) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

end Cert.KernelIdeal.Pieces

end
-- ==== Proof.Payload.lean ====
import proofs.«164879_j29111288332534_1_alg».proof.Proof.Gen.KernelIdeal.Skeleton
import proofs.«164879_j29111288332534_1_alg».proof.Proof.LibPlainDot
import Idealize.ShloMosaic.Lib.Pipeline.Value
import Idealize.ShloMosaic.Lib.ValueIdx
import Idealize.ShloMosaic.PureOps.Ideal.Laws
import Mathlib.Algebra.BigOperators.Fin
import Mathlib.Logic.Equiv.Fin.Basic

/-!
# The body's arithmetic over the extended reals

At the ideal instance the change of format to bf16 is the identity and a matrix product into the zero accumulator is
the plain sum of products, so one step of the body, at entry (p, q) of the accumulator, is

    acc (p, q) + sum over k < 1024 of  a (p, k) * b (k, q),

and the cleared accumulator is 0 everywhere. The last lemma is the re-indexing the certificate rests on: a sum over
8192 = 8 * 1024 terms is the sum over 8 blocks of the sums over the 1024 terms of each block, in any additive
commutative monoid (the extended reals among them: no finiteness is asked).
-/

noncomputable section

open scoped BigOperators
open Idealize.ShloMosaic Idealize.ShloMosaic.ValueIdx

namespace Cert.KernelIdeal.Payload

open Cert.KernelIdeal Cert.KernelIdeal.Gen

/-- The cleared accumulator is zero at every entry. -/
theorem cleared_apply (i : S1024x1024.Idx) : (k0_pay1 (F := Ideal) : S1024x1024.Idx → EReal) i = 0 := by
  unfold k0_pay1
  simp only [shapeCast_self]
  exact Ideal.ofBits_zero_f32

/-- One step of the body at an entry: what the accumulator held plus the blocks' product there. -/
theorem step_apply (a b acc : Vec Ideal S1024x1024 .f32) (i : S1024x1024.Idx) :
    (k0_pay2 (F := Ideal) a b acc : S1024x1024.Idx → EReal) i
      = (acc i : EReal) + ∑ k : Fin 1024, (a (ix2 (i 0) k) : EReal) * (b (ix2 k (i 1)) : EReal) := by
  unfold k0_pay2
  simp only [shapeCast_self]
  exact congrArg (fun z : EReal => (acc i : EReal) + z)
    (Cert.PlainDot.matmul_zero_apply (M := 1024) (K := 1024) (N := 1024)
      dot_S1024x1024_S1024x1024_S1024x1024_1_0_0_1_n_n rfl none
      (truncf (F := Ideal) .bf16 a bitsLt_bf16_f32) (truncf (F := Ideal) .bf16 b bitsLt_bf16_f32) i)

end Cert.KernelIdeal.Payload

namespace Cert.BlockSum

/-- A sum over 8 * 1024 terms, block by block. -/
theorem sum_blocks {β : Type*} [AddCommMonoid β] (f : Fin (8 * 1024) → β) :
    ∑ k : Fin (8 * 1024), f k = ∑ s ∈ Finset.range 8, ∑ k : Fin 1024,
      f ⟨k.val + 1024 * (s % 8), by have := k.isLt; have := Nat.mod_lt s (show 0 < 8 by decide); omega⟩ := by
  rw [← Equiv.sum_comp finProdFinEquiv f, Fintype.sum_prod_type, Finset.sum_range]
  refine Finset.sum_congr rfl fun s _ => Finset.sum_congr rfl fun k _ => congrArg f (Fin.ext ?_)
  show k.val + 1024 * s.val = k.val + 1024 * (s.val % 8)
  rw [Nat.mod_eq_of_lt s.isLt]

/-- The same for a family indexed by the 8192 contraction indices themselves. -/
theorem sum_blocks8192 {β : Type*} [AddCommMonoid β] (f : Fin 8192 → β) :
    ∑ k : Fin 8192, f k = ∑ s ∈ Finset.range 8, ∑ k : Fin 1024,
      f ⟨k.val + 1024 * (s % 8), by have := k.isLt; have := Nat.mod_lt s (show 0 < 8 by decide); omega⟩ :=
  sum_blocks f

end Cert.BlockSum

end
-- ==== Proof.Blocks.lean ====
import proofs.«164879_j29111288332534_1_alg».proof.Proof.Gen.KernelIdeal.Frame
import Idealize.ShloMosaic.Lib.Pipeline.Value

/-!
# Where a grid point's blocks sit in the arrays

The 64 grid points are numbered with the contraction coordinate fastest: point t has row block t / 16, column block
(t / 8) % 2 and contraction block t % 8. The first window reads block (t / 16, t % 8) of the gathered rows, the second
block (t % 8, (t / 8) % 2) of the gathered columns, the output window owns block (t / 16, (t / 8) % 2). A block's entry
y is the array's entry at  block index * 1024 + y  along each axis.
-/

noncomputable section

open Idealize.ShloMosaic Idealize.ShloMosaic.TcCoe Idealize.SL.Sem

namespace Cert.KernelIdeal.Blocks

open Cert.KernelIdeal Cert.KernelIdeal.Gen

variable {F : FTy → Type} [FloatOps F]
variable (m : (ℓ : Loc nD τ sig) → Buf (Elt F) ℓ)

/-- The block indices of the three windows at point t, from t alone. -/
theorem idxA : ∀ t : Fin cfg0.N, win0_0.index t (0 : Fin 2) = t.val / 16 ∧ win0_0.index t (1 : Fin 2) = t.val % 8 :=
  (by decide +kernel : ∀ t : Fin grid0.N, win0_0.index t (0 : Fin 2) = t.val / 16 ∧ win0_0.index t (1 : Fin 2) = t.val % 8)
theorem idxB : ∀ t : Fin cfg0.N, win0_1.index t (0 : Fin 2) = t.val % 8 ∧ win0_1.index t (1 : Fin 2) = t.val / 8 % 2 :=
  (by decide +kernel : ∀ t : Fin grid0.N, win0_1.index t (0 : Fin 2) = t.val % 8 ∧ win0_1.index t (1 : Fin 2) = t.val / 8 % 2)
theorem idxO : ∀ t : Fin cfg0.N, win0_2.index t (0 : Fin 2) = t.val / 16 ∧ win0_2.index t (1 : Fin 2) = t.val / 8 % 2 :=
  (by decide +kernel : ∀ t : Fin grid0.N, win0_2.index t (0 : Fin 2) = t.val / 16 ∧ win0_2.index t (1 : Fin 2) = t.val / 8 % 2)

/-- The gathered rows, as the region finds them. -/
abbrev rowsArr (c : Dev nD) : S4096x8192.Idx → Elt F .f32 := V m c main_v0
/-- The gathered columns, as the region finds them. -/
abbrev colsArr (c : Dev nD) : S8192x2048.Idx → Elt F .f32 := V m c main_v1
/-- The first window's block at point t. -/
abbrev blkA (c : Dev nD) (t : Fin cfg0.N) : S1024x1024.Idx → Elt F .f32 := iblk m c 0 t
/-- The second window's block at point t. -/
abbrev blkB (c : Dev nD) (t : Fin cfg0.N) : S1024x1024.Idx → Elt F .f32 := iblk m c 1 t

/-- Entry y of the first window's block at point t is the rows' entry (t / 16 * 1024 + y0, t % 8 * 1024 + y1). -/
theorem readA (c : Dev nD) (t : Fin cfg0.N) (y : S1024x1024.Idx) (i : S4096x8192.Idx)
    (h0 : (i 0).val = t.val / 16 * 1024 + (y 0).val) (h1 : (i 1).val = t.val % 8 * 1024 + (y 1).val) :
    blkA m c t y = rowsArr m c i := by
  unfold blkA iblk
  rw [View.read_apply]
  show V m c main_v0 (((cfg0.win 0).blk t).view.emb y) = V m c main_v0 i
  refine congrArg (V m c main_v0) (funext fun a => Fin.ext ?_)
  match a with
  | ⟨0, _⟩ => show win0_0.index t 0 * 1024 + 1 * (y 0).val = (i 0).val; rw [(idxA t).1, h0]; omega
  | ⟨1, _⟩ => show win0_0.index t 1 * 1024 + 1 * (y 1).val = (i 1).val; rw [(idxA t).2, h1]; omega

/-- Entry y of the second window's block at point t is the columns' entry (t % 8 * 1024 + y0, (t / 8) % 2 * 1024 + y1). -/
theorem readB (c : Dev nD) (t : Fin cfg0.N) (y : S1024x1024.Idx) (i : S8192x2048.Idx)
    (h0 : (i 0).val = t.val % 8 * 1024 + (y 0).val) (h1 : (i 1).val = t.val / 8 % 2 * 1024 + (y 1).val) :
    blkB m c t y = colsArr m c i := by
  unfold blkB iblk
  rw [View.read_apply]
  show V m c main_v1 (((cfg0.win 1).blk t).view.emb y) = V m c main_v1 i
  refine congrArg (V m c main_v1) (funext fun a => Fin.ext ?_)
  match a with
  | ⟨0, _⟩ => show win0_1.index t 0 * 1024 + 1 * (y 0).val = (i 0).val; rw [(idxB t).1, h0]; omega
  | ⟨1, _⟩ => show win0_1.index t 1 * 1024 + 1 * (y 1).val = (i 1).val; rw [(idxB t).2, h1]; omega

end Cert.KernelIdeal.Blocks

end
-- ==== Proof.Accum.lean ====
import proofs.«164879_j29111288332534_1_alg».proof.Proof.Gen.KernelIdeal.Value
import proofs.«164879_j29111288332534_1_alg».proof.Proof.Pieces
import proofs.«164879_j29111288332534_1_alg».proof.Proof.Payload
import proofs.«164879_j29111288332534_1_alg».proof.Proof.Blocks

/-!
# The accumulator over a run of the contraction coordinate

Grid points 8q, 8q + 1, ..., 8q + 7 are one run: the same output block, the contraction block going 0 ... 7. The first
point of the run clears the accumulator and adds its blocks' product, each later point adds its own; so after point
8q + j the accumulator's entry y is

    0 + sum over s <= j of  (sum over k < 1024 of  a_s (y0, k) * b_s (k, y1)),

with a_s, b_s the two input blocks of point 8q + s. At the run's last point the output block is a copy of it. Only
that a sum may be regrouped is used: nothing is asked of the entries (they may be infinite).
-/

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.KernelIdeal.Blocks

variable (m : (ℓ : Loc nD τ sig) → Buf (Elt Ideal) ℓ)

/-- What point n adds to the accumulator's entry y: the product of its two blocks there (0 past the grid). -/
def addend (c : Dev nD) (n : ℕ) (y : S1024x1024.Idx) : EReal :=
  if h : n < cfg0.N then
    ∑ k : Fin 1024, (blkA m c ⟨n, h⟩ (ix2 (y 0) k) : EReal) * (blkB m c ⟨n, h⟩ (ix2 k (y 1)) : EReal)
  else 0

/-- A run's first point leaves 0 plus its addend, whatever the accumulator held. -/
theorem first_apply (c : Dev nD) (n : ℕ) (hb : n < cfg0.N) (h0 : n % 8 = 0) (acc : Vec Ideal S1024x1024 .f32)
    (y : S1024x1024.Idx) :
    (Value.scAt0_0 m c n hb acc : S1024x1024.Idx → EReal) y = 0 + addend m c n y := by
  have h1 : ¬n % 8 = 7 := by omega
  unfold Value.scAt0_0
  rw [dif_pos h0, dif_neg h1]
  refine (congrFun (Pieces.scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 (⟨n, hb⟩ : Fin cfg0.N)) (iblk m c 1 (⟨n, hb⟩ : Fin cfg0.N))) y).trans ?_
  refine (Payload.step_apply (iblk m c 0 (⟨n, hb⟩ : Fin cfg0.N)) (iblk m c 1 (⟨n, hb⟩ : Fin cfg0.N)) (k0_pay1 (F := Ideal)) y).trans ?_
  rw [Payload.cleared_apply]
  unfold addend
  rw [dif_pos hb]

/-- A later point of a run adds its addend to what the accumulator held. -/
theorem next_apply (c : Dev nD) (n : ℕ) (hb : n < cfg0.N) (h0 : ¬n % 8 = 0) (acc : Vec Ideal S1024x1024 .f32)
    (y : S1024x1024.Idx) :
    (Value.scAt0_0 m c n hb acc : S1024x1024.Idx → EReal) y = (acc y : EReal) + addend m c n y := by
  unfold Value.scAt0_0
  rw [dif_neg h0]
  by_cases h1 : n % 8 = 7
  · rw [dif_pos h1]
    refine (congrFun (Pieces.scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 (⟨n, hb⟩ : Fin cfg0.N)) (iblk m c 1 (⟨n, hb⟩ : Fin cfg0.N)) acc) y).trans ?_
    refine (Payload.step_apply (iblk m c 0 (⟨n, hb⟩ : Fin cfg0.N)) (iblk m c 1 (⟨n, hb⟩ : Fin cfg0.N)) acc y).trans ?_
    unfold addend
    rw [dif_pos hb]
  · rw [dif_neg h1]
    refine (congrFun (Pieces.scratch_mid (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 (⟨n, hb⟩ : Fin cfg0.N)) (iblk m c 1 (⟨n, hb⟩ : Fin cfg0.N)) acc) y).trans ?_
    refine (Payload.step_apply (iblk m c 0 (⟨n, hb⟩ : Fin cfg0.N)) (iblk m c 1 (⟨n, hb⟩ : Fin cfg0.N)) acc y).trans ?_
    unfold addend
    rw [dif_pos hb]

/-- The accumulator after point t: zero plus the addends of its run's points up to t. -/
theorem scratch_after (c : Dev nD) (t : Fin cfg0.N) (y : S1024x1024.Idx) :
    ((outsAt0 m c t.val t.isLt).2 : S1024x1024.Idx → EReal) y
      = 0 + ∑ s ∈ Finset.range (t.val % 8 + 1), addend m c (8 * (t.val / 8) + s) y := by
  rw [Value.soutsAt0_0_eq m c t]
  exact Pipeline.accAt_add_apply (ι := S1024x1024.Idx) (β := EReal)
    (fun n h => Value.scAt0_0 m c n h (VS0_0.read (Elt Ideal) VS0_0.junk)) (Value.scAt0_0 m c) (fun _ => 0) (addend m c)
    (8 * (t.val / 8)) 7
    (fun h i => first_apply m c _ h (Nat.mul_mod_right 8 _) _ i)
    (fun n h acc i hlt hle => next_apply m c n h (by omega) acc i)
    (t.val % 8) (by have := Nat.mod_lt t.val (show 0 < 8 by decide); omega) _ y

/-- At a run's last point the output block is a copy of the accumulator. -/
theorem out_eq_scratch (c : Dev nD) (t : Fin cfg0.N) (h7 : t.val % 8 = 7) :
    (outsAt0 m c t.val t.isLt).1 = (outsAt0 m c t.val t.isLt).2 := by
  have h0 : ¬t.val % 8 = 0 := by omega
  rw [outsAt0_C m c t h0 h7]
  dsimp only
  exact (Pieces.out_last (F := Ideal) c (grid0.coords t) (ms0_0 t) (hs0_0 t) (ms0_1 t) (hs0_1 t) (ms0_2 t) (hs0_2 t) scM0_0
      (Memref.isWhole_whole _) _ _ (iblk m c 0 t) (iblk m c 1 t) _).trans
    (Pieces.scratch_last (F := Ideal) c (grid0.coords t) (ms0_0 t) (hs0_0 t) (ms0_1 t) (hs0_1 t) (ms0_2 t) (hs0_2 t) scM0_0
      (Memref.isWhole_whole _) _ _ (iblk m c 0 t) (iblk m c 1 t) _).symm

end Cert.KernelIdeal.Accum

end
-- ==== Proof.KernelValue.lean ====
import proofs.«164879_j29111288332534_1_alg».proof.Proof.Accum

/-!
# The kernel's result array is the product of the two gathered matrices

Write R for the gathered rows (4096 by 8192) and C for the gathered columns (8192 by 2048), as the kernel region finds
them. Output block (p, q) is written back once, after the last point of its run, holding the accumulator: at entry y

    sum over s < 8 of  sum over k < 1024 of  R (1024 p + y0, 1024 s + k) * C (1024 s + k, 1024 q + y1),

which is the sum over all 8192 contraction indices, block by block: entry (1024 p + y0, 1024 q + y1) of the product
R * C. The eight written blocks tile the 4096 by 2048 result, so the whole array ends at R * C.
-/

noncomputable section

open scoped BigOperators
open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Blocks Cert.KernelIdeal.Accum

/-- The product of a 4096 by 8192 and an 8192 by 2048 matrix over the extended reals, entry by entry. -/
def matProd (A : S4096x8192.Idx → EReal) (B : S8192x2048.Idx → EReal) : S4096x2048.Idx → EReal :=
  fun j => ∑ k : Fin 8192, A (ix2 (j 0) k) * B (ix2 k (j 1))

variable (m : (ℓ : Loc nD τ sig) → Buf (Elt Ideal) ℓ) (ρ : Dev nD → PrngReg)

/-- The addend of the run's point number s, through the arrays: contraction indices 1024 s ... 1024 s + 1023. -/
theorem addend_eq (c : Dev nD) (t : Fin cfg0.N) (h7 : t.val % 8 = 7) (s : ℕ) (hs : s < 8) (y : S1024x1024.Idx)
    (r : Fin 4096) (q : Fin 2048) (hr : r.val = t.val / 16 * 1024 + (y 0).val)
    (hq : q.val = t.val / 8 % 2 * 1024 + (y 1).val) :
    addend m c (8 * (t.val / 8) + s) y
      = ∑ k : Fin 1024,
          (rowsArr m c (ix2 r (⟨k.val + 1024 * (s % 8), by
              have := k.isLt; have := Nat.mod_lt s (show 0 < 8 by decide); omega⟩ : Fin 8192)) : EReal)
            * (colsArr m c (ix2 (⟨k.val + 1024 * (s % 8), by
              have := k.isLt; have := Nat.mod_lt s (show 0 < 8 by decide); omega⟩ : Fin 8192) q) : EReal) := by
  have hN : t.val < 64 := lt_of_lt_of_eq t.isLt N_0
  have hb : 8 * (t.val / 8) + s < cfg0.N := lt_of_lt_of_eq (by omega : 8 * (t.val / 8) + s < 64) N_0.symm
  unfold addend
  rw [dif_pos hb]
  refine Finset.sum_congr rfl fun k _ => ?_
  have hk : k.val < 1024 := k.isLt
  have hy0 : (y 0).val < 1024 := (y 0).isLt
  have hy1 : (y 1).val < 1024 := (y 1).isLt
  have eA := readA m c ⟨8 * (t.val / 8) + s, hb⟩ (ix2 (y 0) k)
    (ix2 r (⟨k.val + 1024 * (s % 8), by omega⟩ : Fin 8192))
    (by show r.val = (8 * (t.val / 8) + s) / 16 * 1024 + (y 0).val; omega)
    (by show k.val + 1024 * (s % 8) = (8 * (t.val / 8) + s) % 8 * 1024 + k.val; omega)
  have eB := readB m c ⟨8 * (t.val / 8) + s, hb⟩ (ix2 k (y 1))
    (ix2 (⟨k.val + 1024 * (s % 8), by omega⟩ : Fin 8192) q)
    (by show k.val + 1024 * (s % 8) = (8 * (t.val / 8) + s) % 8 * 1024 + k.val; omega)
    (by show q.val = (8 * (t.val / 8) + s) / 8 % 2 * 1024 + (y 1).val; omega)
  rw [eA, eB]

/-- Entry y of the output block of point t, as an entry of the result array. -/
theorem emb_out (t : Fin cfg0.N) (y : S1024x1024.Idx) :
    ∃ (r : Fin 4096) (q : Fin 2048), r.val = t.val / 16 * 1024 + (y 0).val ∧ q.val = t.val / 8 % 2 * 1024 + (y 1).val
      ∧ (((cfg0.win 2).blk t).view.emb y : S4096x2048.Idx) = ix2 r q := by
  have hN : t.val < 64 := lt_of_lt_of_eq t.isLt N_0
  have hy0 : (y 0).val < 1024 := (y 0).isLt
  have hy1 : (y 1).val < 1024 := (y 1).isLt
  refine ⟨⟨t.val / 16 * 1024 + (y 0).val, by omega⟩, ⟨t.val / 8 % 2 * 1024 + (y 1).val, by omega⟩, rfl, rfl, ?_⟩
  funext a
  apply Fin.ext
  match a with
  | ⟨0, _⟩ => show win0_2.index t 0 * 1024 + 1 * (y 0).val = t.val / 16 * 1024 + (y 0).val; rw [(idxO t).1]; omega
  | ⟨1, _⟩ => show win0_2.index t 1 * 1024 + 1 * (y 1).val = t.val / 8 % 2 * 1024 + (y 1).val; rw [(idxO t).2]; omega

/-- What a run's last point writes back is its block of the product. -/
theorem flushed_eq (c : Dev nD) (t : Fin cfg0.N) (hf : (cfg0.win 2).flush t = true) :
    (dats m 0 c).flushed 2 t = ((cfg0.win 2).blk t).view.read (Elt Ideal) (matProd (rowsArr m c) (colsArr m c)) := by
  have h7 : t.val % 8 = 7 := (flush0_2 t).mp hf
  rw [Value.flushed2, out_eq_scratch m c t h7]
  funext y
  obtain ⟨r, q, hr, hq, he⟩ := emb_out t y
  refine Eq.trans (b := ((outsAt0 m c t.val t.isLt).2 : S1024x1024.Idx → EReal) y) rfl ?_
  rw [View.read_apply, he, scratch_after m c t y, h7, zero_add]
  refine Eq.trans ?_ (Cert.BlockSum.sum_blocks8192
    (fun k : Fin 8192 => (rowsArr m c (ix2 r k) : EReal) * (colsArr m c (ix2 k q) : EReal))).symm
  exact Finset.sum_congr rfl fun s hs => addend_eq m c t h7 s (Finset.mem_range.mp hs) y r q hr hq

/-- Every entry of the result lies in the block some run's last point writes back. -/
theorem cover (i : S4096x2048.Idx) :
    ∃ t : Fin cfg0.N, (cfg0.win 2).flush t = true ∧ i ∈ ((cfg0.win 2).blk t).view.set := by
  have hi0 : (i 0).val < 4096 := (i 0).isLt
  have hi1 : (i 1).val < 2048 := (i 1).isLt
  obtain ⟨tv, htv⟩ : ∃ tv, tv = (i 0).val / 1024 * 16 + (i 1).val / 1024 * 8 + 7 := ⟨_, rfl⟩
  have hlt : tv < cfg0.N := lt_of_lt_of_eq (by omega : tv < 64) N_0.symm
  refine ⟨⟨tv, hlt⟩, (flush0_2 _).mpr (by show tv % 8 = 7; omega), ?_⟩
  show i ∈ ((View.whole main_v2).slice (win0_2.rect ⟨tv, hlt⟩)).set
  rw [View.set_slice_whole, Rect.mem_set_unit]
  intro a
  match a with
  | ⟨0, _⟩ =>
    show win0_2.index ⟨tv, hlt⟩ 0 * 1024 ≤ (i 0).val ∧ (i 0).val < win0_2.index ⟨tv, hlt⟩ 0 * 1024 + 1024
    rw [(idxO ⟨tv, hlt⟩).1]
    show tv / 16 * 1024 ≤ (i 0).val ∧ (i 0).val < tv / 16 * 1024 + 1024
    omega
  | ⟨1, _⟩ =>
    show win0_2.index ⟨tv, hlt⟩ 1 * 1024 ≤ (i 1).val ∧ (i 1).val < win0_2.index ⟨tv, hlt⟩ 1 * 1024 + 1024
    rw [(idxO ⟨tv, hlt⟩).2]
    show tv / 8 % 2 * 1024 ≤ (i 1).val ∧ (i 1).val < tv / 8 % 2 * 1024 + 1024
    omega

/-- So the result array ends at the product of the gathered rows and the gathered columns. -/
theorem final (c : Dev nD) : (dats m 0 c).arrAt 2 cfg0.N = matProd (rowsArr m c) (colsArr m c) :=
  (dats m 0 c).arrAt_eq_of_cover 2 (matProd (rowsArr m c) (colsArr m c)) (flushed_eq m c) cover

/-- The kernel's run, read: the result at that product, the arguments unchanged. -/
theorem run : θ_run defs (onTc (τ := τ) (main (F := Ideal))) ⟨m, fun _ => 0, ρ⟩ fun r => ∀ c : Dev nD,
      r.2.mem ((c : Thread nD τ).loc main_v2) = matProd (rowsArr m c) (colsArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KernelValue

end
-- ==== Proof.HostPrefix.lean ====
import proofs.«164879_j29111288332534_1_alg».proof.Proof.Gen.KernelIdeal.Frame
import Idealize.ShloMosaic.Lib.StableHlo.Run

/-!
# The two gathers before the kernel

Before the kernel runs, the program picks rows of the first matrix by the first index vector and columns of the second
matrix by the second (a negative index wrapped by 8192 first; a row or column whose wrapped index is outside 0 ... 8191
filled with one fixed float word). Each gather is named here as one function of the program's arguments, and the arrays
the kernel region finds are those functions of the launch contents. Nothing below ever looks inside a gather: the
reference applies the very same two functions.
-/

noncomputable section

open Idealize.ShloMosaic Idealize.ShloMosaic.TcCoe Idealize.SL.Sem

namespace Cert.KernelIdeal.HostPrefix

open Cert.KernelIdeal Cert.KernelIdeal.Gen

variable {F : FTy → Type} [FloatOps F]

/-- Rows of x picked by ids. -/
def rowsTaken (x : (⟨S8192x8192, .f32⟩ : BufTy).Contents (Elt F)) (ids : (⟨S4096, .i32⟩ : BufTy).Contents (Elt F)) :
    (⟨S4096x8192, .f32⟩ : BufTy).Contents (Elt F) :=
  select
    (broadcastInDim S4096x8192 ![0] bcast_S4096_S4096x8192_0
      (Host.reduce IntOp.andi
        (andi
          (cmpi .sge
            (broadcastInDim S4096x1 ![0] bcast_S4096_S4096x1_0
              (select (cmpi .slt ids (broadcastInDim S4096 ![] bcast_S_S4096 (constantI S_ 32 0#32)))
                (addi ids (broadcastInDim S4096 ![] bcast_S_S4096 (constantI S_ 32 8192#32))) ids))
            (broadcastInDim S4096x1 ![] bcast_S_S4096x1 (constantI S_ 32 0#32)))
          (cmpi .sle
            (broadcastInDim S4096x1 ![0] bcast_S4096_S4096x1_0
              (select (cmpi .slt ids (broadcastInDim S4096 ![] bcast_S_S4096 (constantI S_ 32 0#32)))
                (addi ids (broadcastInDim S4096 ![] bcast_S_S4096 (constantI S_ 32 8192#32))) ids))
            (broadcastInDim S4096x1 ![0, 1] bcast_S1x1_S4096x1_0_1
              (broadcastInDim S1x1 ![1] bcast_S1_S1x1_1 (constantI S1 32 8191#32)))))
        (constantI S_ 1 1#1) reducesTo_S4096x1_S4096_d1 h_S_))
    (Host.gather gather_S8192x8192_S4096x1_S4096x8192_1_0_n_n_0_1_18192 x
      (broadcastInDim S4096x1 ![0] bcast_S4096_S4096x1_0
        (select (cmpi .slt ids (broadcastInDim S4096 ![] bcast_S_S4096 (constantI S_ 32 0#32)))
          (addi ids (broadcastInDim S4096 ![] bcast_S_S4096 (constantI S_ 32 8192#32))) ids)))
    (broadcastInDim S4096x8192 ![] bcast_S_S4096x8192 (constant S_ .f32 0x7FC00000#32))

/-- Columns of w picked by ids. -/
def colsTaken (w : (⟨S8192x8192, .f32⟩ : BufTy).Contents (Elt F)) (ids : (⟨S2048, .i32⟩ : BufTy).Contents (Elt F)) :
    (⟨S8192x2048, .f32⟩ : BufTy).Contents (Elt F) :=
  select
    (broadcastInDim S8192x2048 ![1] bcast_S2048_S8192x2048_1
      (Host.reduce IntOp.andi
        (andi
          (cmpi .sge
            (broadcastInDim S2048x1 ![0] bcast_S2048_S2048x1_0
              (select (cmpi .slt ids (broadcastInDim S2048 ![] bcast_S_S2048 (constantI S_ 32 0#32)))
                (addi ids (broadcastInDim S2048 ![] bcast_S_S2048 (constantI S_ 32 8192#32))) ids))
            (broadcastInDim S2048x1 ![] bcast_S_S2048x1 (constantI S_ 32 0#32)))
          (cmpi .sle
            (broadcastInDim S2048x1 ![0] bcast_S2048_S2048x1_0
              (select (cmpi .slt ids (broadcastInDim S2048 ![] bcast_S_S2048 (constantI S_ 32 0#32)))
                (addi ids (broadcastInDim S2048 ![] bcast_S_S2048 (constantI S_ 32 8192#32))) ids))
            (broadcastInDim S2048x1 ![0, 1] bcast_S1x1_S2048x1_0_1
              (broadcastInDim S1x1 ![1] bcast_S1_S1x1_1 (constantI S1 32 8191#32)))))
        (constantI S_ 1 1#1) reducesTo_S2048x1_S2048_d1 h_S_))
    (Host.gather gather_S8192x8192_S2048x1_S8192x2048_0_1_n_n_1_1_81921 w
      (broadcastInDim S2048x1 ![0] bcast_S2048_S2048x1_0
        (select (cmpi .slt ids (broadcastInDim S2048 ![] bcast_S_S2048 (constantI S_ 32 0#32)))
          (addi ids (broadcastInDim S2048 ![] bcast_S_S2048 (constantI S_ 32 8192#32))) ids)))
    (broadcastInDim S8192x2048 ![] bcast_S_S8192x2048 (constant S_ .f32 0x7FC00000#32))

attribute [local irreducible] Host.reduce Host.gather in
set_option maxRecDepth 8192 in
/-- After the host operations that precede the kernel, the first gathered array is the rows picked from the
    arguments, over any contents of the buffers. -/
theorem rows_after (W : Valuation τ sig (Elt F)) :
    StableHlo.after (List.flatten [hostOps0, hostOps0_1]) W (main_v0 : DevRef τ sig)
      = rowsTaken (F := F) (W (main_arg0 : DevRef τ sig)) (W (main_arg2 : DevRef τ sig)) := by
  simp only [hostOps0, hostOps0_1, List.flatten_cons, List.flatten_nil, List.append_nil, List.cons_append,
    List.nil_append]
  after_results_simp <;> rfl

attribute [local irreducible] Host.reduce Host.gather in
set_option maxRecDepth 8192 in
/-- and the second is the columns picked from the arguments. -/
theorem cols_after (W : Valuation τ sig (Elt F)) :
    StableHlo.after (List.flatten [hostOps0, hostOps0_1]) W (main_v1 : DevRef τ sig)
      = colsTaken (F := F) (W (main_arg1 : DevRef τ sig)) (W (main_arg3 : DevRef τ sig)) := by
  simp only [hostOps0, hostOps0_1, List.flatten_cons, List.flatten_nil, List.append_nil, List.cons_append,
    List.nil_append]
  after_results_simp <;> rfl

variable (m : (ℓ : Loc nD τ sig) → Buf (Elt F) ℓ)

/-- The first array the kernel region finds is the rows picked from the launch contents. -/
theorem rows_found (c : Dev nD) :
    (V m c main_v0 : (⟨S4096x8192, .f32⟩ : BufTy).Contents (Elt F))
      = rowsTaken (m ((c : Thread nD τ).loc main_arg0)) (m ((c : Thread nD τ).loc main_arg2)) :=
  rows_after (fun b => m (c, b))

/-- The second array the kernel region finds is the columns picked from the launch contents. -/
theorem cols_found (c : Dev nD) :
    (V m c main_v1 : (⟨S8192x2048, .f32⟩ : BufTy).Contents (Elt F))
      = colsTaken (m ((c : Thread nD τ).loc main_arg1)) (m ((c : Thread nD τ).loc main_arg3)) :=
  cols_after (fun b => m (c, b))

end Cert.KernelIdeal.HostPrefix

end
-- ==== Proof.RefRun.lean ====
/-
  The run of the reference program's @main as one straight line. @main calls @_take on (arg0, arg2), calls @_take_0 on
  (arg1, arg3) and contracts the two results; each called function itself calls a one-line select function. Unfolding
  the calls at their buffer records gives one straight line of 47 operations: 23 that pick rows of the first matrix,
  23 that pick columns of the second, and one contraction. Every weakly fair execution terminates with the result
  buffer at the contraction of the two picked matrices and the four arguments unchanged.
-/
import proofs.«164879_j29111288332534_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The two picked matrices, as pure terms

In both, the index table the gather reads is the index vector with every negative entry counted from the end (8192
added to it), laid out as a table of one column; it occurs three times, as the two range tests' operand and as the
gather's. -/

/-- the rows of the first matrix picked by the first index vector: @_take's composed pure term. Row i of the
    result is the row of x at the i-th index where that index lies in [0, 8191], and a row of quiet NaNs elsewhere. -/
def rowsTaken (x : (⟨S8192x8192, .f32⟩ : BufTy).Contents (Elt F)) (ids : (⟨S4096, .i32⟩ : BufTy).Contents (Elt F)) :
    (⟨S4096x8192, .f32⟩ : BufTy).Contents (Elt F) :=
  select
    (broadcastInDim S4096x8192 ![0] bcast_S4096_S4096x8192_0
      (Host.reduce IntOp.andi
        (andi
          (cmpi .sge
            (broadcastInDim S4096x1 ![0] bcast_S4096_S4096x1_0
        (select (cmpi .slt ids (broadcastInDim S4096 ![] bcast_S_S4096 (constantI S_ 32 0#32)))
          (addi ids (broadcastInDim S4096 ![] bcast_S_S4096 (constantI S_ 32 8192#32))) ids))
            (broadcastInDim S4096x1 ![] bcast_S_S4096x1 (constantI S_ 32 0#32)))
          (cmpi .sle
            (broadcastInDim S4096x1 ![0] bcast_S4096_S4096x1_0
        (select (cmpi .slt ids (broadcastInDim S4096 ![] bcast_S_S4096 (constantI S_ 32 0#32)))
          (addi ids (broadcastInDim S4096 ![] bcast_S_S4096 (constantI S_ 32 8192#32))) ids))
            (broadcastInDim S4096x1 ![0, 1] bcast_S1x1_S4096x1_0_1
              (broadcastInDim S1x1 ![1] bcast_S1_S1x1_1 (constantI S1 32 8191#32)))))
        (constantI S_ 1 1#1) reducesTo_S4096x1_S4096_d1 h_S_))
    (Host.gather gather_S8192x8192_S4096x1_S4096x8192_1_0_n_n_0_1_18192 x
      (broadcastInDim S4096x1 ![0] bcast_S4096_S4096x1_0
        (select (cmpi .slt ids (broadcastInDim S4096 ![] bcast_S_S4096 (constantI S_ 32 0#32)))
          (addi ids (broadcastInDim S4096 ![] bcast_S_S4096 (constantI S_ 32 8192#32))) ids)))
    (broadcastInDim S4096x8192 ![] bcast_S_S4096x8192 (constant S_ .f32 0x7FC00000#32))

/-- the columns of the second matrix picked by the second index vector: @_take_0's composed pure term. Column j of
    the result is the column of w at the j-th index where that index lies in [0, 8191], and a column of quiet NaNs
    elsewhere. -/
def colsTaken (w : (⟨S8192x8192, .f32⟩ : BufTy).Contents (Elt F)) (ids : (⟨S2048, .i32⟩ : BufTy).Contents (Elt F)) :
    (⟨S8192x2048, .f32⟩ : BufTy).Contents (Elt F) :=
  select
    (broadcastInDim S8192x2048 ![1] bcast_S2048_S8192x2048_1
      (Host.reduce IntOp.andi
        (andi
          (cmpi .sge
            (broadcastInDim S2048x1 ![0] bcast_S2048_S2048x1_0
        (select (cmpi .slt ids (broadcastInDim S2048 ![] bcast_S_S2048 (constantI S_ 32 0#32)))
          (addi ids (broadcastInDim S2048 ![] bcast_S_S2048 (constantI S_ 32 8192#32))) ids))
            (broadcastInDim S2048x1 ![] bcast_S_S2048x1 (constantI S_ 32 0#32)))
          (cmpi .sle
            (broadcastInDim S2048x1 ![0] bcast_S2048_S2048x1_0
        (select (cmpi .slt ids (broadcastInDim S2048 ![] bcast_S_S2048 (constantI S_ 32 0#32)))
          (addi ids (broadcastInDim S2048 ![] bcast_S_S2048 (constantI S_ 32 8192#32))) ids))
            (broadcastInDim S2048x1 ![0, 1] bcast_S1x1_S2048x1_0_1
              (broadcastInDim S1x1 ![1] bcast_S1_S1x1_1 (constantI S1 32 8191#32)))))
        (constantI S_ 1 1#1) reducesTo_S2048x1_S2048_d1 h_S_))
    (Host.gather gather_S8192x8192_S2048x1_S8192x2048_0_1_n_n_1_1_81921 w
      (broadcastInDim S2048x1 ![0] bcast_S2048_S2048x1_0
        (select (cmpi .slt ids (broadcastInDim S2048 ![] bcast_S_S2048 (constantI S_ 32 0#32)))
          (addi ids (broadcastInDim S2048 ![] bcast_S_S2048 (constantI S_ 32 8192#32))) ids)))
    (broadcastInDim S8192x2048 ![] bcast_S_S8192x2048 (constant S_ .f32 0x7FC00000#32))

/-! ## @main as one straight line -/

/-- @main's 47 operations, in order: the 23 of @_take over the record of @main's first call (the seventh is the
    select of the function it calls), the 23 of @_take_0 over the record of the second, and the contraction. -/
abbrev ops : List (HloOp τ sig (Elt F)) :=
  [ TRef.nullary main_call0.c (constantI S_ 32 0#32),
    TRef.unary main_call0.c main_call0.v0 (broadcastInDim S4096 ![] bcast_S_S4096),
    TRef.binary (.of main_arg2) main_call0.v0 main_call0.v1 (cmpi .slt),
    TRef.nullary main_call0.c_0 (constantI S_ 32 8192#32),
    TRef.unary main_call0.c_0 main_call0.v2 (broadcastInDim S4096 ![] bcast_S_S4096),
    TRef.binary (.of main_arg2) main_call0.v2 main_call0.v3 addi,
    TRef.ternary main_call0.v1 main_call0.v3 (.of main_arg2) main_call0.call0.v0 select,
    TRef.unary main_call0.call0.v0 main_call0.v5 (broadcastInDim S4096x1 ![0] bcast_S4096_S4096x1_0),
    TRef.nullary main_call0.c_1 (constantI S1 32 8191#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg0) main_call0.v5 main_call0.v13 (fun x i => Host.gather gather_S8192x8192_S4096x1_S4096x8192_1_0_n_n_0_1_18192 x i),
    TRef.unary main_call0.v12 main_call0.v14 (broadcastInDim S4096x8192 ![0] bcast_S4096_S4096x8192_0),
    TRef.nullary main_call0.cst (constant S_ .f32 0x7FC00000#32),
    TRef.unary main_call0.cst main_call0.v15 (broadcastInDim S4096x8192 ![] bcast_S_S4096x8192),
    TRef.ternary main_call0.v14 main_call0.v13 main_call0.v15 main_call0.v16 select,
    TRef.nullary main_call1.c (constantI S_ 32 0#32),
    TRef.unary main_call1.c main_call1.v0 (broadcastInDim S2048 ![] bcast_S_S2048),
    TRef.binary (.of main_arg3) main_call1.v0 main_call1.v1 (cmpi .slt),
    TRef.nullary main_call1.c_0 (constantI S_ 32 8192#32),
    TRef.unary main_call1.c_0 main_call1.v2 (broadcastInDim S2048 ![] bcast_S_S2048),
    TRef.binary (.of main_arg3) main_call1.v2 main_call1.v3 addi,
    TRef.ternary main_call1.v1 main_call1.v3 (.of main_arg3) main_call1.call0.v0 select,
    TRef.unary main_call1.call0.v0 main_call1.v5 (broadcastInDim S2048x1 ![0] bcast_S2048_S2048x1_0),
    TRef.nullary main_call1.c_1 (constantI S1 32 8191#32),
    TRef.nullary main_call1.c_2 (constantI S_ 32 0#32),
    TRef.unary main_call1.c_2 main_call1.v6 (broadcastInDim S2048x1 ![] bcast_S_S2048x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S2048x1 ![0, 1] bcast_S1x1_S2048x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S2048x1_S2048_d1 h_S_),
    TRef.binary (.of main_arg1) main_call1.v5 main_call1.v13 (fun x i => Host.gather gather_S8192x8192_S2048x1_S8192x2048_0_1_n_n_1_1_81921 x i),
    TRef.unary main_call1.v12 main_call1.v14 (broadcastInDim S8192x2048 ![1] bcast_S2048_S8192x2048_1),
    TRef.nullary main_call1.cst (constant S_ .f32 0x7FC00000#32),
    TRef.unary main_call1.cst main_call1.v15 (broadcastInDim S8192x2048 ![] bcast_S_S8192x2048),
    TRef.ternary main_call1.v14 main_call1.v13 main_call1.v15 main_call1.v16 select,
    binary main_v0 main_v1 main_v2 ((fun l r => Host.dotGeneral dot_S4096x8192_S8192x2048_S4096x2048_1_0_0_1_n_n none l r) : (⟨S4096x8192, .f32⟩ : BufTy).Contents (Elt F) → (⟨S8192x2048, .f32⟩ : BufTy).Contents (Elt F) → (⟨S4096x2048, .f32⟩ : BufTy).Contents (Elt F)) ]

-- forty-seven binds re-associated: the rewrite under the chain recurses once per statement
set_option maxRecDepth 2048 in
/-- @main is that straight line: the called functions' definitions unfolded at their calls, both sides are one
    chain of operation steps once sequencing is re-associated. -/
theorem main_eq (c : Dev nD) : main (F := F) c = seq ops := by
  simp only [main, fn_take.body, fn_take_0.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Each operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub ..⟩

/-! ## What the line leaves in the buffers -/

attribute [local irreducible] Host.reduce Host.gather in
set_option maxRecDepth 8192 in
/-- The fold at the result buffer. Read at a buffer, an operation's result is its function's value of the contents
    read before it when the buffer is the one it writes, and what was there otherwise (the references are literals, so
    which of the two is decided). The contraction reads the two picked matrices, each the last value its own 23
    operations write, and so on down to the four arguments: what is left is the composed term, with the index table
    met three times on each side. The reduction and the gathers stay folded: the equation never looks inside them. -/
theorem out_eq (V : Valuation τ sig (Elt F)) :
    after ops V (main_v2 : DevRef τ sig)
      = Host.dotGeneral dot_S4096x8192_S8192x2048_S4096x2048_1_0_0_1_n_n none
          (rowsTaken (F := F) (V (main_arg0 : DevRef τ sig)) (V (main_arg2 : DevRef τ sig)))
          (colsTaken (F := F) (V (main_arg1 : DevRef τ sig)) (V (main_arg3 : DevRef τ sig))) := by
  after_results_simp <;> rfl

/-- No operation writes an argument's buffer. -/
theorem arg0_eq (V : Valuation τ sig (Elt F)) :
    after ops V (main_arg0 : DevRef τ sig) = V (main_arg0 : DevRef τ sig) := by
  simp only [after_cons, after_nil]
  rfl
theorem arg1_eq (V : Valuation τ sig (Elt F)) :
    after ops V (main_arg1 : DevRef τ sig) = V (main_arg1 : DevRef τ sig) := by
  simp only [after_cons, after_nil]
  rfl
theorem arg2_eq (V : Valuation τ sig (Elt F)) :
    after ops V (main_arg2 : DevRef τ sig) = V (main_arg2 : DevRef τ sig) := by
  simp only [after_cons, after_nil]
  rfl
theorem arg3_eq (V : Valuation τ sig (Elt F)) :
    after ops V (main_arg3 : DevRef τ sig) = V (main_arg3 : DevRef τ sig) := by
  simp only [after_cons, after_nil]
  rfl

/-- On the one device, for any float values, from any memory with zero counters: every weakly fair execution of
    @main terminates with the result buffer at the contraction of the picked rows of the first matrix with the
    picked columns of the second, and the four arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = Host.dotGeneral dot_S4096x8192_S8192x2048_S4096x2048_1_0_0_1_n_n none (rowsTaken (m ((c.tc : Thread nD τ).loc main_arg0)) (m ((c.tc : Thread nD τ).loc main_arg2))) (colsTaken (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v2).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.RefRun

end
-- ==== Proof.lean ====
/-
  The kernel multiplies two gathered matrices block by block. Both programs first pick 4096 rows of the first
  8192 by 8192 matrix and 2048 columns of the second by the two index vectors (the same two gathers, operation for
  operation). The reference then contracts the two gathered matrices in one product. The kernel walks a 4 by 2 by 8
  grid of 1024 by 1024 blocks: for each output block it clears an accumulator, adds the products of the eight pairs
  of input blocks along the contraction axis, and writes the accumulator out. Over the extended reals a change of float
  format is the identity and a sum may be regrouped freely, so the kernel's

      sum over 8 blocks of (sum over the 1024 indices of the block)

  is the reference's sum over all 8192 contraction indices, entry by entry. Nothing is asked of the entries (the
  precondition is never opened): only commutativity and associativity of the sum are used.

  The three frames: the kernel's two are its generated frame runs; the reference has no kernel, and its frame is its
  run, read with the result dropped. The idealization rewrote no operation, so there is nothing to preserve.
-/
import proofs.«164879_j29111288332534_1_alg».proof.Defs
import proofs.«164879_j29111288332534_1_alg».proof.Proof.Gen.Kernel
import proofs.«164879_j29111288332534_1_alg».proof.Proof.Gen.Kernel.Skeleton
import proofs.«164879_j29111288332534_1_alg».proof.Proof.Gen.Kernel.Launch
import proofs.«164879_j29111288332534_1_alg».proof.Proof.Gen.Kernel.Points
import proofs.«164879_j29111288332534_1_alg».proof.Proof.Gen.Kernel.Frame
import proofs.«164879_j29111288332534_1_alg».proof.Proof.Gen.KernelIdeal
import proofs.«164879_j29111288332534_1_alg».proof.Proof.Gen.KernelIdeal.Skeleton
import proofs.«164879_j29111288332534_1_alg».proof.Proof.Gen.KernelIdeal.Launch
import proofs.«164879_j29111288332534_1_alg».proof.Proof.Gen.KernelIdeal.Points
import proofs.«164879_j29111288332534_1_alg».proof.Proof.Gen.KernelIdeal.Frame
import proofs.«164879_j29111288332534_1_alg».proof.Proof.Gen.KernelIdeal.Value
import proofs.«164879_j29111288332534_1_alg».proof.Proof.Gen.ReferenceIdeal
import proofs.«164879_j29111288332534_1_alg».proof.Proof.Gen.Pre_finite_inputs
import proofs.«164879_j29111288332534_1_alg».proof.Proof.LibPlainDot
import proofs.«164879_j29111288332534_1_alg».proof.Proof.KernelValue
import proofs.«164879_j29111288332534_1_alg».proof.Proof.HostPrefix
import proofs.«164879_j29111288332534_1_alg».proof.Proof.RefRun
import Idealize.ShloMosaic.Adequacy
import Idealize.ShloMosaic.Init

noncomputable section

namespace Cert.Proof

open Idealize.ShloMosaic Idealize.ShloMosaic.TcCoe Idealize.SL.Sem

/-! ## The two programs gather alike, and the reference's contraction is the plain product -/

/-- The reference's rows are the kernel program's rows: the same operations of the same arguments. -/
theorem rows_same (x : (⟨Cert.KernelIdeal.S8192x8192, .f32⟩ : BufTy).Contents (Elt Ideal))
    (ids : (⟨Cert.KernelIdeal.S4096, .i32⟩ : BufTy).Contents (Elt Ideal)) :
    Cert.ReferenceIdeal.RefRun.rowsTaken (F := Ideal) x ids = Cert.KernelIdeal.HostPrefix.rowsTaken (F := Ideal) x ids := rfl

/-- The reference's columns are the kernel program's columns. -/
theorem cols_same (w : (⟨Cert.KernelIdeal.S8192x8192, .f32⟩ : BufTy).Contents (Elt Ideal))
    (ids : (⟨Cert.KernelIdeal.S2048, .i32⟩ : BufTy).Contents (Elt Ideal)) :
    Cert.ReferenceIdeal.RefRun.colsTaken (F := Ideal) w ids = Cert.KernelIdeal.HostPrefix.colsTaken (F := Ideal) w ids := rfl

/-- The reference's one contraction, entry by entry, is the sum over the 8192 contraction indices. -/
theorem contraction_eq (A : Cert.KernelIdeal.S4096x8192.Idx → EReal) (B : Cert.KernelIdeal.S8192x2048.Idx → EReal) :
    Host.dotGeneral (F := Ideal) (φ₁ := .f32) (φ₂ := .f32) Cert.ReferenceIdeal.dot_S4096x8192_S8192x2048_S4096x2048_1_0_0_1_n_n none A B
      = Cert.KernelIdeal.KernelValue.matProd A B :=
  funext fun j => Cert.PlainDot.dotGeneral_apply (M := 4096) (K := 8192) (N := 2048)
    Cert.ReferenceIdeal.dot_S4096x8192_S8192x2048_S4096x2048_1_0_0_1_n_n rfl none .single A B j

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end with the result at the product of the rows picked from the first argument and the columns picked
    from the second: the kernel's by its accumulation over the grid, the reference's by its one contraction, from
    arguments that agree. -/
theorem algebraic : Cert.algebraic_KernelIdeal_ReferenceIdeal := by
  intro m ρ m' ρ' _ hagree
  refine ⟨fun c => Cert.KernelIdeal.KernelValue.matProd (Cert.KernelIdeal.Blocks.rowsArr m c) (Cert.KernelIdeal.Blocks.colsArr m c),
    Cert.KernelIdeal.KernelValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2, rows_same, cols_same, contraction_eq]
  exact congrArg₂ Cert.KernelIdeal.KernelValue.matProd (Cert.KernelIdeal.HostPrefix.rows_found m c).symm
    (Cert.KernelIdeal.HostPrefix.cols_found m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
